-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x128 : Shape := ⟨3, ![4, 16, 128]⟩
abbrev S_ : Shape := ⟨0, ![]⟩

class Facts : Prop where
  bcast_S_S4x16x128 : S_.BroadcastsInDim S4x16x128 (![] : Fin 0 → Fin S4x16x128.rank)
  reducesTo_S4x16x128_S_d0_1_2 : S4x16x128.ReducesTo [0, 1, 2] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x16x128 .f32) (main_arg1 : FVec F S4x16x128 .f32) (main_arg2 : IVec S4x16x128 32) : IVec S_ 1 :=
  let main_v0 : FVec F S4x16x128 .f32 := Host.absf main_arg0
  let main_cst : FVec F S_ .f32 := constant S_ .f32 0x7F800000#32
  let main_v1 : FVec F S4x16x128 .f32 := broadcastInDim S4x16x128 ![] bcast_S_S4x16x128 main_cst
  let main_v2 : IVec S4x16x128 1 := cmpf .olt main_v0 main_v1
  let main_c : IVec S_ 1 := constantI S_ 1 1#1
  let main_v3 : IVec S_ 1 := (fun x v => Host.reduce IntOp.andi x v reducesTo_S4x16x128_S_d0_1_2 h_S_) main_v2 main_c
  let main_v4 : FVec F S4x16x128 .f32 := Host.absf main_arg1
  let main_cst_0 : FVec F S_ .f32 := constant S_ .f32 0x7F800000#32
  let main_v5 : FVec F S4x16x128 .f32 := broadcastInDim S4x16x128 ![] bcast_S_S4x16x128 main_cst_0
  let main_v6 : IVec S4x16x128 1 := cmpf .olt main_v4 main_v5
  let main_c_1 : IVec S_ 1 := constantI S_ 1 1#1
  let main_v7 : IVec S_ 1 := (fun x v => Host.reduce IntOp.andi x v reducesTo_S4x16x128_S_d0_1_2 h_S_) main_v6 main_c_1
  let main_v8 : IVec S_ 1 := andi main_v3 main_v7
  let main_c_2 : IVec S_ 32 := constantI S_ 32 0#32
  let main_v9 : IVec S4x16x128 32 := broadcastInDim S4x16x128 ![] bcast_S_S4x16x128 main_c_2
  let main_v10 : IVec S4x16x128 1 := cmpi .sge main_arg2 main_v9
  let main_c_3 : IVec S_ 1 := constantI S_ 1 1#1
  let main_v11 : IVec S_ 1 := (fun x v => Host.reduce IntOp.andi x v reducesTo_S4x16x128_S_d0_1_2 h_S_) main_v10 main_c_3
  let main_v12 : IVec S_ 1 := andi main_v8 main_v11
  let main_c_4 : IVec S_ 32 := constantI S_ 32 128#32
  let main_v13 : IVec S4x16x128 32 := broadcastInDim S4x16x128 ![] bcast_S_S4x16x128 main_c_4
  let main_v14 : IVec S4x16x128 1 := cmpi .slt main_arg2 main_v13
  let main_c_5 : IVec S_ 1 := constantI S_ 1 1#1
  let main_v15 : IVec S_ 1 := (fun x v => Host.reduce IntOp.andi x v reducesTo_S4x16x128_S_d0_1_2 h_S_) main_v14 main_c_5
  fn_part1 (F := F) main_v12 main_v15
-- ==== Kernel.lean ====
abbrev S4x16x128 : Shape := ⟨3, ![4, 16, 128]⟩
abbrev S4x1x1 : Shape := ⟨3, ![4, 1, 1]⟩
abbrev S1x16x128 : Shape := ⟨3, ![1, 16, 128]⟩
abbrev S1x1x1 : Shape := ⟨3, ![1, 1, 1]⟩
abbrev S16x128 : Shape := ⟨2, ![16, 128]⟩
abbrev S16x128x128 : Shape := ⟨3, ![16, 128, 128]⟩
abbrev S16x128x1 : Shape := ⟨3, ![16, 128, 1]⟩
abbrev S16x1x128 : Shape := ⟨3, ![16, 1, 128]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S4x16x128, .f32⟩
  | .hbm, ⟨1, _⟩ => ⟨S4x16x128, .f32⟩
  | .hbm, ⟨2, _⟩ => ⟨S4x16x128, .i32⟩
  | .hbm, ⟨3, _⟩ => ⟨S4x1x1, .f32⟩
  | .hbm, ⟨4, _⟩ => ⟨S_, .f32⟩
  | .hbm, ⟨5, _⟩ => ⟨S_, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .i32⟩
  | .local _ .vmem, ⟨5, _⟩ => ⟨S1x16x128, .i32⟩
  | .local _ .vmem, ⟨6, _⟩ => ⟨S1x1x1, .f32⟩
  | .local _ .vmem, ⟨7, _⟩ => ⟨S1x1x1, .f32⟩
  | _, _ => ⟨S4x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  iota_S16x128x128_d2_w32 : S16x128x128.Iotas .tc 32 [2]
  shapeCasts_S16x128_S16x128x1 : S16x128.ShapeCasts S16x128x1
  broadcasts_S16x128x1_S16x128x128 : S16x128x1.Broadcasts S16x128x128
  natLt_1_32 : 1 < 32
  shapeCasts_S16x128_S16x1x128 : S16x128.ShapeCasts S16x1x128
  broadcasts_S16x1x128_S16x128x128 : S16x1x128.Broadcasts S16x128x128
  reduces_S16x128x128_S16x128 : S16x128x128.Reduces [2] S16x128
  iota_S16x128_d1_w32 : S16x128.Iotas .tc 32 [1]
  shapeCasts_S16x128_S1x16x128 : S16x128.ShapeCasts S1x16x128
  reduces_S1x16x128_S1 : S1x16x128.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  reducesTo_S4x1x1_S_d0_1_2 : S4x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128.size a ≤ S4x16x128.size a
  hwx0_0 : ∀ i : grid0.Coords, EltTy.bits .f32 = 32 ∨ (Rect.block (s := S4x16x128) S1x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128.size a ≤ S4x16x128.size a
  hwx0_1 : ∀ i : grid0.Coords, EltTy.bits .f32 = 32 ∨ (Rect.block (s := S4x16x128) S1x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S4x16x128.size a
  hwx0_2 : ∀ i : grid0.Coords, EltTy.bits .i32 = 32 ∨ (Rect.block (s := S4x16x128) S1x16x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4x1x1.size a
  hwx0_3 : ∀ i : grid0.Coords, EltTy.bits .f32 = 32 ∨ (Rect.block (s := S4x1x1) S1x1x1.size (cc0_transform_3 i) (hinb0_3 i)).WholeWords (EltTy.packing .f32)

variable [Facts₀]

abbrev win0_0 : Pipeline.Window sig grid0 :=
  Pipeline.Window.ofSpec (Memref.whole main_arg0) S1x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x128 : Shape := ⟨3, ![4, 16, 128]⟩
abbrev S128 : Shape := ⟨1, ![128]⟩
abbrev S_ : Shape := ⟨0, ![]⟩
abbrev S4x16x128x1 : Shape := ⟨4, ![4, 16, 128, 1]⟩
abbrev S1 : Shape := ⟨1, ![1]⟩
abbrev S1x1x1x1 : Shape := ⟨4, ![1, 1, 1, 1]⟩
abbrev S1x1x128 : Shape := ⟨3, ![1, 1, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x16x128, .f32⟩
  | .hbm, ⟨1, _⟩ => ⟨S4x16x128, .f32⟩
  | .hbm, ⟨2, _⟩ => ⟨S4x16x128, .i32⟩
  | .hbm, ⟨3, _⟩ => ⟨S128, .i32⟩
  | .hbm, ⟨4, _⟩ => ⟨S_, .i32⟩
  | .hbm, ⟨5, _⟩ => ⟨S4x16x128, .i32⟩
  | .hbm, ⟨6, _⟩ => ⟨S4x16x128, .i1⟩
  | .hbm, ⟨7, _⟩ => ⟨S_, .i32⟩
  | .hbm, ⟨8, _⟩ => ⟨S4x16x128, .i32⟩
  | .hbm, ⟨9, _⟩ => ⟨S4x16x128, .i32⟩
  | .hbm, ⟨10, _⟩ => ⟨S4x16x128, .i32⟩
  | .hbm, ⟨11, _⟩ => ⟨S4x16x128x1, .i32⟩
  | .hbm, ⟨12, _⟩ => ⟨S1, .i32⟩
  | .hbm, ⟨13, _⟩ => ⟨S_, .i32⟩
  | .hbm, ⟨14, _⟩ => ⟨S4x16x128x1, .i32⟩
  | .hbm, ⟨15, _⟩ => ⟨S4x16x128x1, .i1⟩
  | .hbm, ⟨16, _⟩ => ⟨S1x1x1x1, .i32⟩
  | .hbm, ⟨17, _⟩ => ⟨S4x16x128x1, .i32⟩
  | .hbm, ⟨18, _⟩ => ⟨S4x16x128x1, .i1⟩
  | .hbm, ⟨19, _⟩ => ⟨S4x16x128x1, .i1⟩
  | .hbm, ⟨20, _⟩ => ⟨S_, .i1⟩
  | .hbm, ⟨21, _⟩ => ⟨S4x16x128, .i1⟩
  | .hbm, ⟨22, _⟩ => ⟨S4x16x128, .f32⟩
  | .hbm, ⟨23, _⟩ => ⟨S_, .f32⟩
  | .hbm, ⟨24, _⟩ => ⟨S4x16x128, .f32⟩
  | .hbm, ⟨25, _⟩ => ⟨S4x16x128, .f32⟩
  | .hbm, ⟨26, _⟩ => ⟨S1x1x128, .i32⟩
  | .hbm, ⟨27, _⟩ => ⟨S4x16x128, .i32⟩
  | .hbm, ⟨28, _⟩ => ⟨S4x16x128, .i32⟩
  | .hbm, ⟨29, _⟩ => ⟨S4x16x128, .f32⟩
  | .hbm, ⟨30, _⟩ => ⟨S4x16x128, .f32⟩
  | .hbm, ⟨31, _⟩ => ⟨S_, .f32⟩
  | .hbm, ⟨32, _⟩ => ⟨S4x16x128, .f32⟩
  | .hbm, ⟨33, _⟩ => ⟨S4x16x128, .f32⟩
  | .hbm, ⟨34, _⟩ => ⟨S4x16x128, .f32⟩
  | .hbm, ⟨35, _⟩ => ⟨S4x16x128, .f32⟩
  | .hbm, ⟨36, _⟩ => ⟨S4x16x128, .f32⟩
  | .hbm, ⟨37, _⟩ => ⟨S_, .f32⟩
  | .hbm, ⟨38, _⟩ => ⟨S_, .f32⟩
  | _, _ => ⟨S4x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩

abbrev nD : Nat := 1
abbrev τ : Topo := Topo.v7x

variable {F : FTy → Type} [FloatOps F]

class Facts₀ : Prop where
  bcast_S_S4x16x128 : S_.BroadcastsInDim S4x16x128 (![] : Fin 0 → Fin S4x16x128.rank)
  shapeCasts_S4x16x128_S4x16x128x1 : S4x16x128.ShapeCasts S4x16x128x1
  bcast_S_S4x16x128x1 : S_.BroadcastsInDim S4x16x128x1 (![] : Fin 0 → Fin S4x16x128x1.rank)
  bcast_S1_S1x1x1x1_3 : S1.BroadcastsInDim S1x1x1x1 (![3] : Fin 1 → Fin S1x1x1x1.rank)
  bcast_S1x1x1x1_S4x16x128x1_0_1_2_3 : S1x1x1x1.BroadcastsInDim S4x16x128x1 (![0, 1, 2, 3] : Fin 4 → Fin S4x16x128x1.rank)
  reducesTo_S4x16x128x1_S4x16x128_d3 : S4x16x128x1.ReducesTo [3] S4x16x128
  h_S_ : 0 < S_.numel
  bcast_S128_S1x1x128_2 : S128.BroadcastsInDim S1x1x128 (![2] : Fin 1 → Fin S1x1x128.rank)
  bcast_S1x1x128_S4x16x128_0_1_2 : S1x1x128.BroadcastsInDim S4x16x128 (![0, 1, 2] : Fin 3 → Fin S4x16x128.rank)
  reducesTo_S4x16x128_S_d0_1_2 : S4x16x128.ReducesTo [0, 1, 2] S_
  gather_S4x16x128_S4x16x128x1_S4x16x128_n_2_01_01_2_3_111_wf : GatherDims.WF S4x16x128 S4x16x128x1 S4x16x128 [] [2] [0, 1] [2] [0, 1] 3 ![1, 1, 1]

variable [Facts₀]

def gather_S4x16x128_S4x16x128x1_S4x16x128_n_2_01_01_2_3_111 : GatherDims S4x16x128 S4x16x128x1 S4x16x128 where
  offsetDims := []
  collapsedSliceDims := [2]
  operandBatchingDims := [0, 1]
  startIndicesBatchingDims := [0, 1]
  startIndexMap := [2]
  indexVectorDim := 3
  sliceSizes := ![1, 1, 1]
  wf := gather_S4x16x128_S4x16x128x1_S4x16x128_n_2_01_01_2_3_111_wf

class Facts : Prop extends Facts₀ where

variable [Facts]
-- ==== Proof.Words.lean ====
/-
  Signed comparisons of a 32-bit word with the two ends of the lane range [0, 128), as statements about the word's
  signed value.
-/
import Idealize.ShloMosaic.PureOps
import Idealize.ShloMosaic.Lib.StableHlo.Predicate
import Idealize.ShloMosaic.Lib.ValueIdx

namespace Cert.Matching.Words

open Idealize.ShloMosaic

theorem toInt_zero : (0#32 : BitVec 32).toInt = 0 := by decide
theorem toInt_127 : (127#32 : BitVec 32).toInt = 127 := by decide
theorem toInt_128 : (128#32 : BitVec 32).toInt = 128 := by decide

/-- `w ≥ 0`, signed. -/
theorem sge_zero_iff (w : BitVec 32) : IntOp.cmpi .sge w 0#32 = 1#1 ↔ 0 ≤ w.toInt := by
  show BitVec.ofBool ((0#32 : BitVec 32).sle w) = 1#1 ↔ _
  rw [StableHlo.Predicate.ofBool_eq_one_iff, BitVec.sle, decide_eq_true_eq, toInt_zero]

/-- `w < 128`, signed. -/
theorem slt_128_iff (w : BitVec 32) : IntOp.cmpi .slt w 128#32 = 1#1 ↔ w.toInt < 128 := by
  show BitVec.ofBool (w.slt (128#32 : BitVec 32)) = 1#1 ↔ _
  rw [StableHlo.Predicate.ofBool_eq_one_iff, BitVec.slt, decide_eq_true_eq, toInt_128]

/-- `w ≤ 127`, signed. -/
theorem sle_127_iff (w : BitVec 32) : IntOp.cmpi .sle w 127#32 = 1#1 ↔ w.toInt ≤ 127 := by
  show BitVec.ofBool (w.sle (127#32 : BitVec 32)) = 1#1 ↔ _
  rw [StableHlo.Predicate.ofBool_eq_one_iff, BitVec.sle, decide_eq_true_eq, toInt_127]

/-- A word that is not negative fails `w < 0`. -/
theorem slt_zero_of_nonneg {w : BitVec 32} (h : 0 ≤ w.toInt) : IntOp.cmpi .slt w 0#32 = 0#1 := by
  apply ValueIdx.eq_zero_of_ne_one
  show ¬ BitVec.ofBool (w.slt (0#32 : BitVec 32)) = 1#1
  rw [StableHlo.Predicate.ofBool_eq_one_iff, BitVec.slt, decide_eq_true_eq, toInt_zero]
  omega

end Cert.Matching.Words
-- ==== Proof.PreRange.lean ====
/-
  What the precondition says of the assignment: every entry, read signed, is a lane index, 0 ≤ σ < 128.

  The precondition is the conjunction of four `all`s; the last two are `all (σ ≥ 0)` and `all (σ < 128)`. Each is an
  and-reduction over every index that came out 1, so its operand is 1 at every index, and there the comparison with the
  broadcast constant says the bound.
-/
import proofs.«410018_j7825430413467_1_alg».proof.Pre_finite_inputs
import proofs.«410018_j7825430413467_1_alg».proof.Proof.Words
import Idealize.ShloMosaic.PureOps.Ideal
import Idealize.ShloMosaic.Lib.ReduceAll
import Idealize.ShloMosaic.Lib.ValueIdx

namespace Cert.Pre_finite_inputs.Range

open Idealize.ShloMosaic Cert.Pre_finite_inputs Cert.Matching.Words

variable [Facts]

instance : Subsingleton S_.Idx := ⟨fun _ _ => funext fun d => d.elim0⟩

/-- Under the precondition every assignment entry is a lane. -/
theorem lane_of_pre {F : FTy → Type} [FloatOps F] (a0 a1 : FVec F S4x16x128 .f32) (a2 : IVec S4x16x128 32)
    (h : fn (F := F) a0 a1 a2 = fun _ => 1#1) (j : S4x16x128.Idx) : 0 ≤ (a2 j).toInt ∧ (a2 j).toInt < 128 := by
  have h0 := congrFun h ValueIdx.ix0
  unfold fn fn_part1 at h0
  dsimp only at h0
  obtain ⟨h12, h15⟩ := IntOp.andi_eq_one.1 h0
  obtain ⟨-, h11⟩ := IntOp.andi_eq_one.1 h12
  have hge := Host.reduce_andi_all _ _ _ _ _ h11 j
  have hlt := Host.reduce_andi_all _ _ _ _ _ h15 j
  have b0 : broadcastInDim S4x16x128 ![] Facts.bcast_S_S4x16x128 (constantI S_ 32 0#32) j = 0#32 :=
    StableHlo.Predicate.bcast_scalar _ Facts.h_S_ _ j
  have b1 : broadcastInDim S4x16x128 ![] Facts.bcast_S_S4x16x128 (constantI S_ 32 128#32) j = 128#32 :=
    StableHlo.Predicate.bcast_scalar _ Facts.h_S_ _ j
  constructor
  · refine (sge_zero_iff (a2 j)).1 ?_
    rw [← b0]; exact hge
  · refine (slt_128_iff (a2 j)).1 ?_
    rw [← b1]; exact hlt

end Cert.Pre_finite_inputs.Range
-- ==== Proof.Spec.lean ====
/-
  The matching loss both programs compute, as one function of the three argument arrays over the extended reals.

  For a prediction `p`, a target `q` and an assignment `σ`, all of shape [4, 16, 128], position (s, r, i) costs
      η · (i − σ(s,r,i))² + (p(s,r,i) − q(s,r,σ(s,r,i)))²,
  the difference `i − σ` taken in 32-bit words and read as a signed integer, and the loss is the sum of the costs over
  every position. An assignment entry is a lane of the row it sits in: a word `w` with 0 ≤ w < 128 names lane `w`.

  Two facts about the sum are proved here. It may be taken grid point by grid point: the positions are the pairs of a
  slab `s` and a position (r, i) inside the slab. And the entry `q(σ)` is a sum over the lanes of the row with a weight
  that is one at lane `σ` and zero elsewhere; this is how a gather is written with a comparison and a lane sum.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Matching

open Idealize.ShloMosaic Idealize.ShloMosaic.ValueIdx

/-- The arrays' shape, one slab of it (a grid point's block), and the shape of the per-slab partial sums. -/
abbrev Arr : Shape := ⟨3, ![4, 16, 128]⟩
abbrev Slab : Shape := ⟨3, ![1, 16, 128]⟩
abbrev Parts : Shape := ⟨3, ![4, 1, 1]⟩

/-- The lane a word names: the word read signed, cut to the row's 128 lanes. -/
def lane (w : BitVec 32) : Fin 128 := ⟨min w.toInt.toNat 127, by omega⟩

/-- A word in range is the word of its lane. -/
theorem ofNat_lane {w : BitVec 32} (h0 : 0 ≤ w.toInt) (h1 : w.toInt < 128) : BitVec.ofNat 32 (lane w).val = w := by
  apply BitVec.eq_of_toInt_eq
  have hl : (lane w).val = w.toInt.toNat := by show min w.toInt.toNat 127 = _; omega
  rw [hl, StableHlo.Predicate.toInt_ofNat_small _ (by omega)]
  omega

/-- The word of a lane names that lane. -/
theorem lane_ofNat (j : Fin 128) : lane (BitVec.ofNat 32 j.val) = j := by
  apply Fin.ext
  show min (BitVec.ofNat 32 j.val).toInt.toNat 127 = j.val
  rw [StableHlo.Predicate.toInt_ofNat_small _ (by omega)]
  omega

/-- The cost of one position: lane `i` assigned the word `w`, the prediction `p` there against the target entry `q`. -/
def cost (p q : EReal) (i : Fin 128) (w : BitVec 32) : EReal :=
  Ideal.ofBits .f32 0x3B449BA6#32
      * (FloatOps.sitofp (F := Ideal) .f32 (IntOp.subi (BitVec.ofNat 32 i.val) w)
          * FloatOps.sitofp (F := Ideal) .f32 (IntOp.subi (BitVec.ofNat 32 i.val) w))
    + (p - q) * (p - q)

/-- The cost of position (s, r, i) of the arrays. -/
def at3 (p q : FVec Ideal Arr .f32) (σ : IVec Arr 32) (s : Fin 4) (r : Fin 16) (i : Fin 128) : EReal :=
  cost (p (ix3 s r i)) (q (ix3 s r (lane (σ (ix3 s r i))))) i (σ (ix3 s r i))

/-- The loss: the sum of the costs over every position (from the zero both programs start their sums at). -/
def loss (p q : FVec Ideal Arr .f32) (σ : IVec Arr 32) : EReal :=
  Ideal.ofBits .f32 0x00000000#32 + ∑ j : Arr.Idx, at3 p q σ (j 0) (j 1) (j 2)

/-- A position is a slab and a position inside a slab. -/
def splitEquiv : Arr.Idx ≃ Parts.Idx × Slab.Idx where
  toFun j := (ix3 (j 0) (0 : Fin 1) (0 : Fin 1), ix3 (0 : Fin 1) (j 1) (j 2))
  invFun x := ix3 (x.1 0) (x.2 1) (x.2 2)
  left_inv j := by funext a; match a with | ⟨0, _⟩ => rfl | ⟨1, _⟩ => rfl | ⟨2, _⟩ => rfl
  right_inv x := by
    obtain ⟨s, y⟩ := x
    refine Prod.ext (funext fun a => ?_) (funext fun a => ?_)
    · match a with
      | ⟨0, _⟩ => rfl
      | ⟨1, _⟩ => exact Fin.ext (by have := (s 1).isLt; show 0 = (s 1).val; simp at this; omega)
      | ⟨2, _⟩ => exact Fin.ext (by have := (s 2).isLt; show 0 = (s 2).val; simp at this; omega)
    · match a with
      | ⟨0, _⟩ => exact Fin.ext (by have := (y 0).isLt; show 0 = (y 0).val; simp at this; omega)
      | ⟨1, _⟩ => rfl
      | ⟨2, _⟩ => rfl

/-- A sum over every position is the sum over the slabs of the sums inside each slab. -/
theorem sum_by_slab {M : Type} [AddCommMonoid M] (f : Fin 4 → Fin 16 → Fin 128 → M) :
    ∑ j : Arr.Idx, f (j 0) (j 1) (j 2) = ∑ s : Parts.Idx, ∑ y : Slab.Idx, f (s 0) (y 1) (y 2) :=
  (Fintype.sum_equiv splitEquiv (fun j : Arr.Idx => f (j 0) (j 1) (j 2))
    (fun x : Parts.Idx × Slab.Idx => f (x.1 0) (x.2 1) (x.2 2)) (fun _ => rfl)).trans
    (Fintype.sum_prod_type _)

/-- The weight a lane gets: the comparison of the assigned word with the lane's word, widened and read as a number. -/
def weight (w : BitVec 32) (j : Fin 128) : EReal :=
  FloatOps.sitofp (F := Ideal) .f32 ((IntOp.cmpi .eq w (BitVec.ofNat 32 j.val)).setWidth 32)

theorem weight_self (j : Fin 128) : weight (BitVec.ofNat 32 j.val) j = 1 := by
  unfold weight
  rw [StableHlo.Predicate.cmpi_eq_iff.mpr rfl]
  show (((((1#1 : BitVec 1).setWidth 32).toInt : ℝ)) : EReal) = 1
  norm_num

theorem weight_ne {w : BitVec 32} {j : Fin 128} (h : w ≠ BitVec.ofNat 32 j.val) : weight w j = 0 := by
  unfold weight
  have hc : IntOp.cmpi .eq w (BitVec.ofNat 32 j.val) = 0#1 := by
    have := (StableHlo.Predicate.cmpi_eq_iff (a := w) (b := BitVec.ofNat 32 j.val)).not.mpr h
    exact ValueIdx.eq_zero_of_ne_one this
  rw [hc]
  show (((((0#1 : BitVec 1).setWidth 32).toInt : ℝ)) : EReal) = 0
  norm_num

/-- The lane sum with those weights picks the assigned lane's entry, for a word in range. -/
theorem sum_weight_mul (q : Fin 128 → EReal) {w : BitVec 32} (h0 : 0 ≤ w.toInt) (h1 : w.toInt < 128) :
    ∑ j : Fin 128, weight w j * q j = q (lane w) := by
  rw [Finset.sum_eq_single (lane w)]
  · have := weight_self (lane w)
    rw [ofNat_lane h0 h1] at this
    rw [this, one_mul]
  · intro j _ hj
    rw [weight_ne, zero_mul]
    intro e
    apply hj
    rw [e, lane_ofNat]
  · intro h; exact absurd (Finset.mem_univ _) h

end Cert.Matching

end
-- ==== Proof.LibLayoutUnit.lean ====
/-
  Layout operations that add a unit axis after the first axis, or broadcast along one axis of a rank-3 vector, read at an
  index written by coordinates. A row-major cast that inserts an axis of size one keeps every other coordinate; a
  broadcast along an axis of size one reads that axis at zero.
-/
import Idealize.ShloMosaic.Lib.ValueIdx
import Idealize.ShloMosaic.Lib.Pipeline.Value

namespace Idealize.ShloMosaic.LayoutUnit

open Idealize.ShloMosaic Idealize.ShloMosaic.ValueIdx

variable {α : Type}

/-- A vector of one entry cast to `[1, 1, 1]` reads that entry everywhere. -/
theorem shapeCast_1_111_apply (x : (⟨1, ![1]⟩ : Shape).Idx → α)
    (h : (⟨1, ![1]⟩ : Shape).ShapeCasts ⟨3, ![1, 1, 1]⟩) (j : (⟨3, ![1, 1, 1]⟩ : Shape).Idx) :
    shapeCast ⟨3, ![1, 1, 1]⟩ x h j = x (ix1 (0 : Fin 1)) :=
  shapeCast_apply x h _ _ (by
    have h0 : (j 0).val = 0 := by have := (j 0).isLt; simp at this; omega
    have h1 : (j 1).val = 0 := by have := (j 1).isLt; simp at this; omega
    have h2 : (j 2).val = 0 := by have := (j 2).isLt; simp at this; omega
    rw [Shape.rowMajor_val_three, Shape.rowMajor_val_one]
    show 0 = ((j 0).val * 1 + (j 1).val) * 1 + (j 2).val
    rw [h0, h1, h2])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast along its last axis to `[a, b, c]` reads, at `(i, j, k)`, the operand at `(i, j, 0)`. -/
theorem broadcastTo_ab1_abc_apply {a b c : ℕ} (ha : a ≠ 1) (hb : b ≠ 1) (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) :=
  broadcastTo_apply x h _ _ (fun d => match d with
    | ⟨0, _⟩ => by show i.val = if a = 1 then 0 else i.val; rw [if_neg ha]
    | ⟨1, _⟩ => by show j.val = if b = 1 then 0 else j.val; rw [if_neg hb]
    | ⟨2, _⟩ => by show 0 = if (1 : ℕ) = 1 then 0 else k.val; rw [if_pos rfl])

/-- An `[a, 1, c]` array broadcast along its middle axis to `[a, b, c]` reads, at `(i, j, k)`, the operand at `(i, 0, k)`. -/
theorem broadcastTo_a1c_abc_apply {a b c : ℕ} (ha : a ≠ 1) (hc : c ≠ 1) (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) :=
  broadcastTo_apply x h _ _ (fun d => match d with
    | ⟨0, _⟩ => by show i.val = if a = 1 then 0 else i.val; rw [if_neg ha]
    | ⟨1, _⟩ => by show 0 = if (1 : ℕ) = 1 then 0 else j.val; rw [if_pos rfl]
    | ⟨2, _⟩ => by show k.val = if c = 1 then 0 else k.val; rw [if_neg hc])

end Idealize.ShloMosaic.LayoutUnit
-- ==== Proof.KernelBlock.lean ====
/-
  What the kernel body stores for one grid point, as a number.

  The body holds one slab of each array: a [16, 128] block `p` of the prediction, `q` of the target and `σ` of the
  assignment. For every row `r` and lane `i` it compares `σ(r, i)` with each lane index `j`, multiplies the 0/1 result by
  `q(r, j)` and sums over `j`: with `σ(r, i)` a lane of the row this is `q(r, σ(r, i))` (`lane_take`). It then forms
  η · (i − σ(r, i))² + (p(r, i) − q(r, σ(r, i)))², sums it over the whole slab, and stores the sum as its [1, 1, 1]
  block (`pay_apply`): the slab's share of the loss.
-/
import proofs.«410018_j7825430413467_1_alg».proof.Proof.Gen.KernelIdeal.Skeleton
import proofs.«410018_j7825430413467_1_alg».proof.Proof.Spec
import proofs.«410018_j7825430413467_1_alg».proof.Proof.LibLayoutUnit
import Idealize.ShloMosaic.Lib.Pipeline.Value
import Idealize.ShloMosaic.Lib.ValueLayout

noncomputable section
namespace Cert.KernelIdeal.BlockValue
open Idealize.ShloMosaic Idealize.ShloMosaic.ValueIdx Idealize.ShloMosaic.LayoutUnit Cert.KernelIdeal Cert.KernelIdeal.Gen Cert.Matching

/-- Word subtraction and comparison of vectors act entry by entry. -/
theorem subi_apply {s : Shape} {w : Nat} (x y : IVec s w) (i : s.Idx) : subi x y i = IntOp.subi (x i) (y i) := rfl
theorem cmpi_apply {s : Shape} {w : Nat} (p : CmpIPredicate) (x y : IVec s w) (i : s.Idx) : cmpi p x y i = IntOp.cmpi p (x i) (y i) := rfl

/-- THE LANE SUM IS A TAKE: comparing an assignment with the lane index, widening the bit to a number, multiplying by the
    row of `q` and summing over the lanes reads `q` at the assigned lane, when every assigned word is a lane. -/
theorem lane_take (q : FVec Ideal S16x128 .f32) (σ : IVec S16x128 32)
    (hσ : ∀ j, 0 ≤ (σ j).toInt ∧ (σ j).toInt < 128)
    (h1 : S16x128.ShapeCasts S16x128x1) (h2 : S16x128x1.Broadcasts S16x128x128) (h3 : S16x128x128.Iotas .tc 32 [2])
    (h4 : 1 < 32) (h5 : S16x128.ShapeCasts S16x1x128) (h6 : S16x1x128.Broadcasts S16x128x128)
    (hred : S16x128x128.Reduces [2] S16x128) (hφ : FKind.Formats .f32) (hacc : (0x00000000#32 : BitVec 32) = FKind.add.neutral .f32 hφ)
    (r : Fin 16) (i : Fin 128) :
    multiReduction .add [2] S16x128
        (mulf (sitofp .f32 (extui 32 (cmpi .eq (broadcastTo S16x128x128 (shapeCast S16x128x1 σ h1) h2) (iota .tc S16x128x128 32 [2] h3)) h4))
          (broadcastTo S16x128x128 (shapeCast S16x1x128 q h5) h6))
        0x00000000#32 hred hφ hacc (ix2 r i)
      = q (ix2 r (lane (σ (ix2 r i)))) := by
  refine (Ideal.multiReduction_add_single _ _ hred _ _ (ix2 r i)).trans ?_
  refine Eq.trans (Finset.sum_congr rfl fun (k : Fin 128) _ => ?_)
    (sum_weight_mul (fun k => q (ix2 r k)) (hσ (ix2 r i)).1 (hσ (ix2 r i)).2)
  have hl : hred.lift (ix2 r i) k = ix3 r i k := by
    funext a; match a with | ⟨0, _⟩ => rfl | ⟨1, _⟩ => rfl | ⟨2, _⟩ => rfl
  rw [hl]
  simp only [mulf_apply, sitofp_apply, extui_apply, cmpi_apply]
  rw [broadcastTo_ab1_abc_apply (by decide) (by decide) _ _ r i k, shapeCast_ab_ab1_apply _ _ r i 0,
    iota_single_apply .tc S16x128x128 32 2 _ (ix3 r i k),
    broadcastTo_a1c_abc_apply (by decide) (by decide) _ _ r i k, shapeCast_ab_a1b_apply _ _ r 0 k]
  rfl

/-- THE BODY'S STORE: the sum over the slab of the cost of each position, the target read at the assigned lane. -/
theorem pay_apply (x0 x1 : Vec Ideal S1x16x128 .f32) (x2 : Vec Ideal S1x16x128 .i32)
    (hσ : ∀ z, 0 ≤ (x2 z).toInt ∧ (x2 z).toInt < 128) (y : S1x1x1.Idx) :
    k0_pay1 (F := Ideal) x0 x1 x2 y
      = ∑ z : S1x16x128.Idx, cost (x0 z) (x1 (ix3 (0 : Fin 1) (z 1) (lane (x2 z)))) (z 2) (x2 z) := by
  unfold k0_pay1
  dsimp only
  refine (shapeCast_1_111_apply _ _ _).trans ?_
  refine (Ideal.multiReduction_add_total _ _ _ (fun b => by match b with | ⟨0, _⟩ => rfl) _ _ _).trans ?_
  refine Finset.sum_congr rfl fun z _ => ?_
  obtain ⟨u, r, i, rfl⟩ : ∃ (u : Fin 1) (r : Fin 16) (i : Fin 128), z = ix3 u r i := ⟨z 0, z 1, z 2, eq_ix3 z⟩
  obtain rfl : u = 0 := Subsingleton.elim _ _
  refine (shapeCast_ab_1ab_apply _ _ 0 r i).trans ?_
  have hI : iota .tc S16x128 32 [1] iota_S16x128_d1_w32 (ix2 r i) = BitVec.ofNat 32 i.val :=
    iota_single_apply .tc S16x128 32 1 iota_S16x128_d1_w32 (ix2 r i)
  have h0 := shapeCast_1ab_ab_apply x0 shapeCasts_S1x16x128_S16x128 r i
  have h2 : ∀ (r : Fin 16) (i : Fin 128), shapeCast S16x128 x2 shapeCasts_S1x16x128_S16x128 (ix2 r i) = x2 (ix3 0 r i) :=
    fun r i => shapeCast_1ab_ab_apply x2 shapeCasts_S1x16x128_S16x128 r i
  have hσ' : ∀ j, 0 ≤ (shapeCast S16x128 x2 shapeCasts_S1x16x128_S16x128 j).toInt
      ∧ (shapeCast S16x128 x2 shapeCasts_S1x16x128_S16x128 j).toInt < 128 := fun j => by
    obtain ⟨r', i', rfl⟩ : ∃ (r' : Fin 16) (i' : Fin 128), j = ix2 r' i' := ⟨j 0, j 1, eq_ix2 j⟩
    rw [h2]; exact hσ _
  have hg := lane_take (shapeCast S16x128 x1 shapeCasts_S1x16x128_S16x128) (shapeCast S16x128 x2 shapeCasts_S1x16x128_S16x128) hσ'
    shapeCasts_S16x128_S16x128x1 broadcasts_S16x128x1_S16x128x128 iota_S16x128x128_d2_w32 natLt_1_32
    shapeCasts_S16x128_S16x1x128 broadcasts_S16x1x128_S16x128x128 reduces_S16x128x128_S16x128 (.inl rfl) rfl r i
  have e : ∀ (a b m m' : EReal), m = m' → a + (b - m) * (b - m) = a + (b - m') * (b - m') :=
    fun _ _ _ _ h => by rw [h]
  simp only [addf_apply, mulf_apply, subf_apply, sitofp_apply, broadcast_apply, subi_apply, hI]
  refine (e _ _ _ _ hg).trans ?_
  rw [h0, h2, shapeCast_1ab_ab_apply x1 shapeCasts_S1x16x128_S16x128 r]
  rfl
end Cert.KernelIdeal.BlockValue
end
-- ==== Proof.KernelRun.lean ====
/-
  The kernel program's result as the loss.

  Grid point `t` of the one region holds slab `t` of each of the three arrays (block reads below) and writes its
  [1, 1, 1] block, entry `t` of a [4, 1, 1] array of partial sums: the sum of the costs over slab `t`
  (`flushed_eq`, from the body's store). The four blocks tile that array (`cover`), so after the region it holds the
  four slab sums (`final`). The program then adds them up from zero; a sum over all positions taken slab by slab is the
  sum over all positions, so the result is the loss (`tail_eq`, `run`).
-/
import proofs.«410018_j7825430413467_1_alg».proof.Proof.Gen.KernelIdeal.Frame
import proofs.«410018_j7825430413467_1_alg».proof.Proof.KernelBlock
import Idealize.ShloMosaic.Lib.Pipeline.Value
import Idealize.ShloMosaic.Lib.StableHlo.Run
import Idealize.ShloMosaic.PureOps.Ideal.Laws

set_option maxRecDepth 16384

noncomputable section

namespace Cert.KernelIdeal.RunValue

open Idealize.ShloMosaic Idealize.ShloMosaic.TcCoe Idealize.ShloMosaic.ValueIdx Idealize.SL.Sem
open Idealize.ShloMosaic.Pipeline (Dat)
open Cert.KernelIdeal Cert.KernelIdeal.Gen Cert.Matching

variable (m : (ℓ : Loc nD τ sig) → Buf (Elt Ideal) ℓ) (ρ : Dev nD → PrngReg)

/-- The three argument arrays as launched, and the slab of each a grid point holds. -/
abbrev pArr (c : Dev nD) : FVec Ideal S4x16x128 .f32 := m ((c : Thread nD τ).loc main_arg0)
abbrev qArr (c : Dev nD) : FVec Ideal S4x16x128 .f32 := m ((c : Thread nD τ).loc main_arg1)
abbrev sArr (c : Dev nD) : IVec S4x16x128 32 := m ((c : Thread nD τ).loc main_arg2)
abbrev pBlk (c : Dev nD) (t : Fin cfg0.N) : Vec Ideal S1x16x128 .f32 := iblk m c 0 t
abbrev qBlk (c : Dev nD) (t : Fin cfg0.N) : Vec Ideal S1x16x128 .f32 := iblk m c 1 t
abbrev sBlk (c : Dev nD) (t : Fin cfg0.N) : Vec Ideal S1x16x128 .i32 := iblk m c 2 t

/-- Every entry of the assignment is a lane. -/
def InRange (c : Dev nD) : Prop := ∀ j : S4x16x128.Idx, 0 ≤ (sArr m c j).toInt ∧ (sArr m c j).toInt < 128

theorem hz : (![0, 0, 0] : Fin 3 → Nat) = fun _ => 0 := funext fun a => by fin_cases a <;> rfl

/-- The printed index maps over the grid: every window is at the slab of its point, and the slab is one of the four. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 4 ∧ win0_3.index t (1 : Fin 3) = 0 ∧ win0_3.index t (2 : Fin 3) = 0 :=
  (by decide +kernel : ∀ t : Fin grid0.N, _)

/-- Every slab is some point's. -/
theorem idx_onto : ∀ q0 : Fin 4, ∃ t : Fin cfg0.N, win0_3.index t = ![q0.val, 0, 0] :=
  (by decide +kernel : ∀ q0 : Fin 4, ∃ t : Fin grid0.N, win0_3.index t = ![q0.val, 0, 0])

/-- The slab of a grid point. -/
def slab (t : Fin cfg0.N) : Fin 4 := ⟨win0_3.index t (0 : Fin 3), (idx_facts t).2.2.2.2.2.2.2.2.2.1⟩

/-- A point's block of each array is the array's slab. -/
theorem pBlk_apply (c : Dev nD) (t : Fin cfg0.N) (r : Fin 16) (i : Fin 128) :
    pBlk m c t (ix3 (0 : Fin 1) r i) = pArr m c (ix3 (slab t) r i) := by
  obtain ⟨e0, e1, e2, -⟩ := idx_facts t
  show V m c main_arg0 (((cfg0.win 0).blk t).view.emb (ix3 (0 : Fin 1) r i)) = V m c main_arg0 (ix3 (slab t) r i)
  refine congrArg (V m c main_arg0) (funext fun a => Fin.ext ?_)
  match a with
  | ⟨0, _⟩ => show win0_0.index t (0 : Fin 3) * 1 + 1 * 0 = win0_3.index t (0 : Fin 3); omega
  | ⟨1, _⟩ => show win0_0.index t (1 : Fin 3) * 16 + 1 * r.val = r.val; omega
  | ⟨2, _⟩ => show win0_0.index t (2 : Fin 3) * 128 + 1 * i.val = i.val; omega

theorem qBlk_apply (c : Dev nD) (t : Fin cfg0.N) (r : Fin 16) (i : Fin 128) :
    qBlk m c t (ix3 (0 : Fin 1) r i) = qArr m c (ix3 (slab t) r i) := by
  obtain ⟨-, -, -, e0, e1, e2, -⟩ := idx_facts t
  show V m c main_arg1 (((cfg0.win 1).blk t).view.emb (ix3 (0 : Fin 1) r i)) = V m c main_arg1 (ix3 (slab t) r i)
  refine congrArg (V m c main_arg1) (funext fun a => Fin.ext ?_)
  match a with
  | ⟨0, _⟩ => show win0_1.index t (0 : Fin 3) * 1 + 1 * 0 = win0_3.index t (0 : Fin 3); omega
  | ⟨1, _⟩ => show win0_1.index t (1 : Fin 3) * 16 + 1 * r.val = r.val; omega
  | ⟨2, _⟩ => show win0_1.index t (2 : Fin 3) * 128 + 1 * i.val = i.val; omega

theorem sBlk_apply (c : Dev nD) (t : Fin cfg0.N) (r : Fin 16) (i : Fin 128) :
    sBlk m c t (ix3 (0 : Fin 1) r i) = sArr m c (ix3 (slab t) r i) := by
  obtain ⟨-, -, -, -, -, -, e0, e1, e2, -⟩ := idx_facts t
  show V m c main_arg2 (((cfg0.win 2).blk t).view.emb (ix3 (0 : Fin 1) r i)) = V m c main_arg2 (ix3 (slab t) r i)
  refine congrArg (V m c main_arg2) (funext fun a => Fin.ext ?_)
  match a with
  | ⟨0, _⟩ => show win0_2.index t (0 : Fin 3) * 1 + 1 * 0 = win0_3.index t (0 : Fin 3); omega
  | ⟨1, _⟩ => show win0_2.index t (1 : Fin 3) * 16 + 1 * r.val = r.val; omega
  | ⟨2, _⟩ => show win0_2.index t (2 : Fin 3) * 128 + 1 * i.val = i.val; omega

/-- The partial sums: entry `s` is the sum of the costs over slab `s`. -/
def parts (c : Dev nD) : S4x1x1.Idx → EReal := fun s =>
  ∑ z : S1x16x128.Idx, at3 (pArr m c) (qArr m c) (sArr m c) (s 0) (z 1) (z 2)

/-- WHAT POINT `t` WRITES BACK is block `t` of the partial sums. -/
theorem flushed_eq (c : Dev nD) (hr : InRange m c) (t : Fin cfg0.N) :
    (dats m 0 c).flushed 3 t = ((cfg0.win 3).blk t).view.read (Elt Ideal) (parts m c) := by
  show (cfg0.win 3).cut (grid0.coords t) ((dats m 0 c).after 3 t) = _
  rw [after0_3]
  unfold out0_3
  rw [View.canon_unit_zero hz]
  simp only [View.ld_unit_zero (S := S1x16x128) hz]
  funext y
  have hs : ∀ z : S1x16x128.Idx, 0 ≤ (sBlk m c t z).toInt ∧ (sBlk m c t z).toInt < 128 := fun z => by
    obtain ⟨u, r, i, rfl⟩ : ∃ (u : Fin 1) (r : Fin 16) (i : Fin 128), z = ix3 u r i := ⟨z 0, z 1, z 2, eq_ix3 z⟩
    obtain rfl : u = 0 := Subsingleton.elim _ _
    rw [sBlk_apply]; exact hr _
  show k0_pay1 (F := Ideal) (pBlk m c t) (qBlk m c t) (sBlk m c t) y = parts m c (((cfg0.win 3).blk t).view.emb y)
  refine (BlockValue.pay_apply (pBlk m c t) (qBlk m c t) (sBlk m c t) hs y).trans ?_
  have he : (((cfg0.win 3).blk t).view.emb y) (0 : Fin 3) = slab t := by
    apply Fin.ext
    have hy : (y 0).val < 1 := (y 0).isLt
    show win0_3.index t (0 : Fin 3) * 1 + 1 * (y 0).val = win0_3.index t (0 : Fin 3)
    omega
  unfold parts
  rw [he]
  refine Finset.sum_congr rfl fun z _ => ?_
  obtain ⟨u, r, i, rfl⟩ : ∃ (u : Fin 1) (r : Fin 16) (i : Fin 128), z = ix3 u r i := ⟨z 0, z 1, z 2, eq_ix3 z⟩
  obtain rfl : u = 0 := Subsingleton.elim _ _
  show cost (pBlk m c t (ix3 0 r i)) (qBlk m c t (ix3 0 r (lane (sBlk m c t (ix3 0 r i))))) i (sBlk m c t (ix3 0 r i)) = _
  rw [pBlk_apply, qBlk_apply, sBlk_apply]
  rfl

/-- An index of the partial sums is in point `t`'s block iff each coordinate is in the block's range on its axis. -/
theorem mem_blk (t : Fin cfg0.N) (i : S4x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v0).slice (win0_3.rect t)).set ↔ _
  rw [View.set_slice_whole, Rect.mem_set_unit]
  exact Iff.rfl

/-- The four blocks tile the partial sums. -/
theorem cover (i : S4x1x1.Idx) : ∃ t : Fin cfg0.N, (cfg0.win 3).flush t = true ∧ i ∈ ((cfg0.win 3).blk t).view.set := by
  have h0 : (i 0).val < 4 := (i 0).isLt
  have h1 : (i 1).val = 0 := by have := (i 1).isLt; simp at this; omega
  have h2 : (i 2).val = 0 := by have := (i 2).isLt; simp at this; omega
  obtain ⟨t, ht⟩ := idx_onto ⟨(i 0).val, h0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- THE ARRAY of partial sums after the region. -/
theorem final (c : Dev nD) (hr : InRange m c) : (dats m 0 c).arrAt 3 cfg0.N = parts m c :=
  (dats m 0 c).arrAt_eq_of_cover 3 (parts m c) (fun t _ => flushed_eq m c hr t) cover

/-- THE RESULT: the host sum of the partial sums, from zero, is the loss. -/
theorem tail_eq (c : Dev nD) (hr : InRange m c) :
    Pipeline.afterTail₀ cfgs (dats m) 0 (V0 m) [hostOps1] c main_v1
      = fun _ => loss (pArr m c) (qArr m c) (sArr m c) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = parts m c :=
    (Pipeline.withArrays_arr spec0 launch0.win.arr_inj c _ _ 3).trans (final m c hr)
  rw [hw]
  funext j
  simp only [Host.reduceAdd, Ideal.hostReduceAdd_def]
  refine (Ideal.hostReduceAdd_total reducesTo_S4x1x1_S_d0_1_2 (fun b => b.elim0) _ _ j).trans ?_
  unfold loss parts
  rw [sum_by_slab]
  rfl

/-- THE RUN, READ: every weakly fair execution of the kernel program terminates with the result at the loss of the
    argument arrays and the arguments unchanged, when every assignment entry is a lane. -/
theorem run (hr : ∀ c, InRange m c) :
    θ_run defs (onTc (τ := τ) (main (F := Ideal))) ⟨m, fun _ => 0, ρ⟩ fun r => ∀ c : Dev nD,
      r.2.mem ((c.tc : Thread nD τ).loc main_v1) = (fun _ => loss (pArr m c) (qArr m c) (sArr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 rfl (by decide))).trans (tail_eq m c (hr c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.RunValue

end
-- ==== Proof.LibReduceAnd.lean ====
/-
  A reduction by `and` over one-bit words that starts at 1 and meets only 1s ends at 1: the converse of reading a
  `jnp.all` back. It serves a mask computed as "every component of an index is in range" whose components are known
  to be in range.
-/
import Idealize.ShloMosaic.Lib.ReduceAll

namespace Idealize.ShloMosaic

namespace IntOp

/-- A left fold by `and` from 1 over 1s is 1. -/
theorem foldl_andi_of_all_one {ι : Type} (f : ι → BitVec 1) (hf : ∀ n, f n = 1#1) :
    ∀ (l : List ι) (init : BitVec 1), init = 1#1 → l.foldl (fun r n => andi r (f n)) init = 1#1
  | [], _, h => h
  | a :: l, init, h => by
    rw [List.foldl_cons]
    exact foldl_andi_of_all_one f hf l _ (andi_eq_one.2 ⟨h, hf a⟩)

end IntOp

namespace Host

variable {s t u : Shape} {axes : List (Fin s.rank)}

/-- A `stablehlo.reduce` by `and` from the initial value 1 over an operand of 1s is 1 at every index. -/
theorem reduce_andi_of_all_one (x : s.Idx → BitVec 1) (init : u.Idx → BitVec 1) (h : s.ReducesTo axes t) (hu : 0 < u.numel)
    (j : t.Idx) (hi : init (Shape.Idx.first hu) = 1#1) (hx : ∀ i, x i = 1#1) :
    Host.reduce IntOp.andi x init h hu j = 1#1 := by
  rw [Host.reduce_eq_foldl]
  exact IntOp.foldl_andi_of_all_one x hx _ _ hi

end Host

end Idealize.ShloMosaic
-- ==== Proof.RefValue.lean ====
/-
  The reference program's result as the loss.

  The reference first normalises the assignment (a negative word gets 128 added), tests that the normalised word is
  in [0, 127], gathers the target along the last axis at the normalised word (the gather cuts the word to the row),
  and puts a not-a-number where the test failed. For an assignment whose every entry is a lane none of this does
  anything: the word is left as it is (`idx_word`), the test passes everywhere (`mask_one`), and the gather reads the
  target at the assigned lane of the same slab and row (`gather_apply`, `taken`). Each summand is then the cost of its
  position (`summand`) and the result, a sum over every position from zero, is the loss (`result_eq`).
-/
import proofs.«410018_j7825430413467_1_alg».proof.Proof.Gen.ReferenceIdeal.Read
import proofs.«410018_j7825430413467_1_alg».proof.Proof.Spec
import proofs.«410018_j7825430413467_1_alg».proof.Proof.Words
import proofs.«410018_j7825430413467_1_alg».proof.Proof.LibReduceAnd
import Idealize.ShloMosaic.Lib.ValueIdx

noncomputable section
namespace Cert.ReferenceIdeal.RefValue
open Idealize.ShloMosaic Idealize.ShloMosaic.ValueIdx Cert.ReferenceIdeal Cert.ReferenceIdeal.Gen Cert.ReferenceIdeal.Read Cert.Matching Cert.Matching.Words

/-- THE GATHER READ AT (s, r, i): slab and row are batching axes, read at the result's own coordinates; the lane is the
    start index at (s, r, i), read signed and cut to the row. -/
theorem gather_apply (x1 : FVec Ideal S4x16x128 .f32) (idx : IVec S4x16x128x1 32) (s : Fin 4) (r : Fin 16) (i : Fin 128) :
    Host.gather gather_S4x16x128_S4x16x128x1_S4x16x128_n_2_01_01_2_3_111 x1 idx (ix3 s r i)
      = x1 (ix3 s r (lane (idx (ix4 s r i (0 : Fin 1))))) := by
  unfold Host.gather
  refine congrArg x1 (funext fun a => Fin.ext ?_)
  have m0 : (0 : Fin S4x16x128.rank) ∈ gather_S4x16x128_S4x16x128x1_S4x16x128_n_2_01_01_2_3_111.operandBatchingDims :=
    show (0 : Fin 3) ∈ [0, 1] by decide
  have m1 : (1 : Fin S4x16x128.rank) ∈ gather_S4x16x128_S4x16x128x1_S4x16x128_n_2_01_01_2_3_111.operandBatchingDims :=
    show (1 : Fin 3) ∈ [0, 1] by decide
  have m2 : (2 : Fin S4x16x128.rank) ∉ gather_S4x16x128_S4x16x128x1_S4x16x128_n_2_01_01_2_3_111.operandBatchingDims :=
    show (2 : Fin 3) ∉ [0, 1] by decide
  have c2 : (2 : Fin S4x16x128.rank) ∈ gather_S4x16x128_S4x16x128x1_S4x16x128_n_2_01_01_2_3_111.collapsedSliceDims :=
    show (2 : Fin 3) ∈ [2] by decide
  have s2 : (2 : Fin S4x16x128.rank) ∈ gather_S4x16x128_S4x16x128x1_S4x16x128_n_2_01_01_2_3_111.startIndexMap :=
    show (2 : Fin 3) ∈ [2] by decide
  match a with
  | ⟨0, _⟩ =>
    show GatherDims.start _ (ix3 s r i) idx 0 + GatherDims.batchCoord _ (ix3 s r i) 0 + GatherDims.offCoord _ (ix3 s r i) 0 = s.val
    rw [GatherDims.start_batching _ _ _ _ m0, GatherDims.offCoord_eq_zero _ _ _ (fun h => ((GatherDims.mem_sKept _ _).mp h).2 m0)]
    unfold GatherDims.batchCoord
    rw [dif_pos m0, Nat.zero_add, Nat.add_zero]
    rfl
  | ⟨1, _⟩ =>
    show GatherDims.start _ (ix3 s r i) idx 1 + GatherDims.batchCoord _ (ix3 s r i) 1 + GatherDims.offCoord _ (ix3 s r i) 1 = r.val
    rw [GatherDims.start_batching _ _ _ _ m1, GatherDims.offCoord_eq_zero _ _ _ (fun h => ((GatherDims.mem_sKept _ _).mp h).2 m1)]
    unfold GatherDims.batchCoord
    rw [dif_pos m1, Nat.zero_add, Nat.add_zero]
    rfl
  | ⟨2, _⟩ =>
    show GatherDims.start _ (ix3 s r i) idx 2 + GatherDims.batchCoord _ (ix3 s r i) 2 + GatherDims.offCoord _ (ix3 s r i) 2
      = min (idx (ix4 s r i (0 : Fin 1))).toInt.toNat 127
    rw [GatherDims.batchCoord_eq_zero _ _ _ m2, GatherDims.offCoord_eq_zero _ _ _ (fun h => ((GatherDims.mem_sKept _ _).mp h).1 c2)]
    unfold GatherDims.start
    rw [dif_pos s2]
    have hsi : GatherDims.siIdx gather_S4x16x128_S4x16x128x1_S4x16x128_n_2_01_01_2_3_111 (ix3 s r i)
        ⟨List.idxOf (2 : Fin S4x16x128.rank) gather_S4x16x128_S4x16x128x1_S4x16x128_n_2_01_01_2_3_111.startIndexMap,
          List.idxOf_lt_length_iff.2 s2⟩ = ix4 s r i (0 : Fin 1) := by
      funext b; refine Fin.ext ?_
      match b with
      | ⟨0, _⟩ => rfl
      | ⟨1, _⟩ => rfl
      | ⟨2, _⟩ => rfl
      | ⟨3, _⟩ => rfl
    rw [hsi]
    rfl
variable (x0 x1 : FVec Ideal S4x16x128 .f32) (x2 : IVec S4x16x128 32)
  (hr : ∀ j, 0 ≤ (x2 j).toInt ∧ (x2 j).toInt < 128)

include hr

/-- The normalised index is the assignment entry itself: an entry that is not negative is not wrapped. -/
theorem idx_word (s : Fin 4) (r : Fin 16) (i : Fin 128) (u : Fin 1) :
    val_main_call0_v5 (F := Ideal) x2 (ix4 s r i u) = x2 (ix3 s r i) := by
  rw [val_main_call0_v5_apply]
  have hk : idx_main_call0_v5 (ix4 s r i u) = ix3 s r i := by
    funext a; refine Fin.ext ?_
    have hu : u.val = 0 := by omega
    have hs : s.val < 4 := s.isLt
    have hr' : r.val < 16 := r.isLt
    have hi : i.val < 128 := i.isLt
    match a with
    | ⟨0, _⟩ => show (((s.val * 16 + r.val) * 128 + i.val) * 1 + u.val) / 2048 = s.val; omega
    | ⟨1, _⟩ => show (((s.val * 16 + r.val) * 128 + i.val) * 1 + u.val) / 128 % 16 = r.val; omega
    | ⟨2, _⟩ => show (((s.val * 16 + r.val) * 128 + i.val) * 1 + u.val) % 128 = i.val; omega
  rw [hk, val_main_call0_v4_apply, val_main_call0_v1_apply, val_main_call0_v0_apply, val_main_call0_c_apply,
    slt_zero_of_nonneg (hr _).1, select_zero]

/-- The in-range test passes at every position. -/
theorem mask_one (j : S4x16x128.Idx) : val_main_call0_v12 (F := Ideal) x2 j = 1#1 := by
  unfold val_main_call0_v12
  refine Host.reduce_andi_of_all_one _ _ _ _ j rfl (fun k => ?_)
  obtain ⟨s, r, i, u, rfl⟩ : ∃ (s : Fin 4) (r : Fin 16) (i : Fin 128) (u : Fin 1), k = ix4 s r i u :=
    ⟨k 0, k 1, k 2, k 3, eq_ix4 k⟩
  rw [val_main_call0_v11_apply, val_main_call0_v7_apply, val_main_call0_v10_apply, idx_word x2 hr,
    val_main_call0_v6_apply, val_main_call0_c_2_apply, val_main_call0_v9_apply, val_main_call0_v8_apply,
    val_main_call0_c_1_apply]
  exact IntOp.andi_eq_one.2 ⟨(sge_zero_iff _).2 (hr _).1, (sle_127_iff _).2 (by have := (hr (ix3 s r i)).2; omega)⟩

/-- The matched entry: the target at the assigned lane of the same slab and row. -/
theorem taken (s : Fin 4) (r : Fin 16) (i : Fin 128) :
    val_main_v1 (F := Ideal) x1 x2 (ix3 s r i) = x1 (ix3 s r (lane (x2 (ix3 s r i)))) := by
  rw [val_main_v1_apply, mask_one x2 hr, select_one]
  unfold val_main_call0_v13
  rw [gather_apply, idx_word x2 hr]

/-- Each summand is the cost of its position. -/
theorem summand (s : Fin 4) (r : Fin 16) (i : Fin 128) :
    val_main_v11 (F := Ideal) x0 x1 x2 (ix3 s r i) = at3 x0 x1 x2 s r i := by
  rw [val_main_v11_apply, val_main_v8_apply, val_main_v10_apply, val_main_v9_apply, val_main_v7_apply,
    val_main_cst_apply, val_main_v6_apply, val_main_v5_apply, val_main_v4_apply, val_main_v3_apply,
    val_main_v2_apply, val_main_v0_apply, taken x1 x2 hr]
  rfl

/-- THE RESULT is the loss. -/
theorem result_eq : val_main_v12 (F := Ideal) x0 x1 x2 = fun _ => loss x0 x1 x2 := by
  funext i0
  rw [val_main_v12_apply]
  unfold loss
  refine congrArg₂ (· + ·) rfl (Finset.sum_congr rfl fun j _ => ?_)
  obtain ⟨s, r, i, rfl⟩ : ∃ (s : Fin 4) (r : Fin 16) (i : Fin 128), j = ix3 s r i := ⟨j 0, j 1, j 2, eq_ix3 j⟩
  exact summand x0 x1 x2 hr s r i

end Cert.ReferenceIdeal.RefValue
end
-- ==== Proof.lean ====
/-
  A matching loss computed by a kernel and by its reference agree over the extended reals.

  Inputs: a prediction `p`, a target `q` (both f32[4, 16, 128]) and an assignment `σ` (i32[4, 16, 128]) that sends each
  lane `i` of a row to a lane `σ(i)` of the same row. Both programs return
      Σ over (s, r, i) of  η · (i − σ(s,r,i))² + (p(s,r,i) − q(s,r,σ(s,r,i)))²,    η the f32 nearest 0.003.
  The reference reads `q(s,r,σ)` with a gather and sums every position at once. The kernel runs one grid point per slab
  `s`; it has no gather, so it compares `σ(s,r,i)` with every lane index, multiplies the 0/1 outcome by the row of `q`
  and sums over the lanes, adds the two squares, sums them over the slab into one number, and the host adds the four
  numbers. At the ideal values a sum may be taken in any grouping, and a weight that is one at a single lane and zero
  elsewhere picks that lane's entry, so the two results are the same function `Cert.Matching.loss` of the arguments.

  The precondition says the float inputs are finite and every assignment entry is a lane, 0 ≤ σ < 128. Outside that
  range the two programs differ: the reference wraps a negative index and fills an index past the row with a
  not-a-number, while the kernel's comparison matches no lane and contributes zero. The range is all the proof uses of
  the precondition; finiteness is not needed, since no step distributes a product over a sum or cancels.

  The modules: `Spec` (the loss, the sum taken slab by slab, the lane sum with 0/1 weights), `KernelBlock` (what the
  body stores for one slab), `KernelRun` (the four blocks, the host sum, the kernel program's run), `RefValue` (the
  reference's gather and mask under the range, its result), `PreRange` (the range read off the precondition).
  The three frames are the generated ones; the ideal pass rewrote nothing, so `preserves` is `True`.
-/
import proofs.«410018_j7825430413467_1_alg».proof.Defs
import proofs.«410018_j7825430413467_1_alg».proof.Proof.Gen.Kernel.Frame
import proofs.«410018_j7825430413467_1_alg».proof.Proof.Gen.KernelIdeal.Frame
import proofs.«410018_j7825430413467_1_alg».proof.Proof.Gen.ReferenceIdeal.Run
import proofs.«410018_j7825430413467_1_alg».proof.Proof.Gen.ReferenceIdeal.Read
import proofs.«410018_j7825430413467_1_alg».proof.Proof.Gen.Pre_finite_inputs
import proofs.«410018_j7825430413467_1_alg».proof.Proof.PreRange
import proofs.«410018_j7825430413467_1_alg».proof.Proof.KernelRun
import proofs.«410018_j7825430413467_1_alg».proof.Proof.RefValue
import Idealize.ShloMosaic.Adequacy
import Idealize.ShloMosaic.Init

noncomputable section

namespace Cert.Proof

open Idealize.ShloMosaic Idealize.SL.Sem

/-- The kernel as printed, and read at the ideal values, runs and leaves its arguments as they were. -/
theorem frame_k : Cert.frame_Kernel := fun m ρ _ => Cert.Kernel.Gen.frame m ρ
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the loss of the arguments they agree on. The precondition gives the range of the assignment;
    the kernel's run and the reference's run are then both at `loss p q σ`. -/
theorem algebraic : Cert.algebraic_KernelIdeal_ReferenceIdeal := by
  intro m ρ m' ρ' hpre hagree
  have hr : ∀ c, Cert.KernelIdeal.RunValue.InRange m c := fun c =>
    Cert.Pre_finite_inputs.Range.lane_of_pre _ _ _ (hpre c)
  refine ⟨_, Cert.KernelIdeal.RunValue.run m ρ hr, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _).trans ?_
  rw [(hagree c).1, (hagree c).2.1, (hagree c).2.2]
  exact Cert.ReferenceIdeal.RefValue.result_eq _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
